-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288 : Shape := ⟨1, ![524288]⟩
abbrev S262144x2 : Shape := ⟨2, ![262144, 2]⟩
abbrev S8388608 : Shape := ⟨1, ![8388608]⟩
abbrev S_ : Shape := ⟨0, ![]⟩

class Facts : Prop where
  bcast_S_S524288 : S_.BroadcastsInDim S524288 (![] : Fin 0 → Fin S524288.rank)
  reducesTo_S524288_S_d0 : S524288.ReducesTo [0] S_
  h_S_ : 0 < S_.numel
  bcast_S_S262144x2 : S_.BroadcastsInDim S262144x2 (![] : Fin 0 → Fin S262144x2.rank)
  reducesTo_S262144x2_S_d0_1 : S262144x2.ReducesTo [0, 1] S_

variable [Facts]

def fn {F : FTy → Type} [FloatOps F] (main_arg0 : FVec F S524288 .f32) (main_arg1 : FVec F S262144x2 .f32) (main_arg2 : IVec S8388608 32) (main_arg3 : IVec S8388608 32) (main_arg4 : IVec S8388608 32) : IVec S_ 1 :=
  let main_v0 : FVec F S524288 .f32 := Host.absf main_arg0
  let main_cst : FVec F S_ .f32 := constant S_ .f32 0x7F800000#32
  let main_v1 : FVec F S524288 .f32 := broadcastInDim S524288 ![] bcast_S_S524288 main_cst
  let main_v2 : IVec S524288 1 := cmpf .olt main_v0 main_v1
  let main_c : IVec S_ 1 := constantI S_ 1 1#1
  let main_v3 : IVec S_ 1 := (fun x v => Host.reduce IntOp.andi x v reducesTo_S524288_S_d0 h_S_) main_v2 main_c
  let main_v4 : FVec F S262144x2 .f32 := Host.absf main_arg1
  let main_cst_0 : FVec F S_ .f32 := constant S_ .f32 0x7F800000#32
  let main_v5 : FVec F S262144x2 .f32 := broadcastInDim S262144x2 ![] bcast_S_S262144x2 main_cst_0
  let main_v6 : IVec S262144x2 1 := cmpf .olt main_v4 main_v5
  let main_c_1 : IVec S_ 1 := constantI S_ 1 1#1
  let main_v7 : IVec S_ 1 := (fun x v => Host.reduce IntOp.andi x v reducesTo_S262144x2_S_d0_1 h_S_) main_v6 main_c_1
  let main_v8 : IVec S_ 1 := andi main_v3 main_v7
  main_v8
-- ==== Kernel.lean ====
abbrev S524288 : Shape := ⟨1, ![524288]⟩
abbrev S262144x2 : Shape := ⟨2, ![262144, 2]⟩
abbrev S8388608 : Shape := ⟨1, ![8388608]⟩
abbrev S2x262144 : Shape := ⟨2, ![2, 262144]⟩
abbrev S_ : Shape := ⟨0, ![]⟩
abbrev S8388608x1 : Shape := ⟨2, ![8388608, 1]⟩
abbrev S2x8388608 : Shape := ⟨2, ![2, 8388608]⟩
abbrev S1x1 : Shape := ⟨2, ![1, 1]⟩
abbrev S2x16384 : Shape := ⟨2, ![2, 16384]⟩
abbrev S1x16384 : Shape := ⟨2, ![1, 16384]⟩
abbrev S1 : Shape := ⟨1, ![1]⟩

abbrev nBuf : Space → Nat
  | .hbm => 37
  | .vmem => 7
  | .smem => 0
  | _ => 0

abbrev bufTy : (tb : Table) → Fin (tcTables nBuf tb) → BufTy
  | .hbm, ⟨0, _⟩ => ⟨S524288, .f32⟩
  | .hbm, ⟨1, _⟩ => ⟨S262144x2, .f32⟩
  | .hbm, ⟨2, _⟩ => ⟨S8388608, .i32⟩
  | .hbm, ⟨3, _⟩ => ⟨S8388608, .i32⟩
  | .hbm, ⟨4, _⟩ => ⟨S8388608, .i32⟩
  | .hbm, ⟨5, _⟩ => ⟨S262144x2, .f32⟩
  | .hbm, ⟨6, _⟩ => ⟨S262144x2, .f32⟩
  | .hbm, ⟨7, _⟩ => ⟨S2x262144, .f32⟩
  | .hbm, ⟨8, _⟩ => ⟨S_, .i32⟩
  | .hbm, ⟨9, _⟩ => ⟨S8388608, .i32⟩
  | .hbm, ⟨10, _⟩ => ⟨S8388608, .i1⟩
  | .hbm, ⟨11, _⟩ => ⟨S_, .i32⟩
  | .hbm, ⟨12, _⟩ => ⟨S8388608, .i32⟩
  | .hbm, ⟨13, _⟩ => ⟨S8388608, .i32⟩
  | .hbm, ⟨14, _⟩ => ⟨S8388608, .i32⟩
  | .hbm, ⟨15, _⟩ => ⟨S8388608x1, .i32⟩
  | .hbm, ⟨16, _⟩ => ⟨S2x8388608, .f32⟩
  | .hbm, ⟨17, _⟩ => ⟨S_, .i32⟩
  | .hbm, ⟨18, _⟩ => ⟨S8388608, .i32⟩
  | .hbm, ⟨19, _⟩ => ⟨S8388608, .i1⟩
  | .hbm, ⟨20, _⟩ => ⟨S_, .i32⟩
  | .hbm, ⟨21, _⟩ => ⟨S8388608, .i32⟩
  | .hbm, ⟨22, _⟩ => ⟨S8388608, .i32⟩
  | .hbm, ⟨23, _⟩ => ⟨S8388608, .i32⟩
  | .hbm, ⟨24, _⟩ => ⟨S8388608x1, .i32⟩
  | .hbm, ⟨25, _⟩ => ⟨S2x8388608, .f32⟩
  | .hbm, ⟨26, _⟩ => ⟨S_, .i32⟩
  | .hbm, ⟨27, _⟩ => ⟨S8388608, .i32⟩
  | .hbm, ⟨28, _⟩ => ⟨S8388608, .i1⟩
  | .hbm, ⟨29, _⟩ => ⟨S_, .i32⟩
  | .hbm, ⟨30, _⟩ => ⟨S8388608, .i32⟩
  | .hbm, ⟨31, _⟩ => ⟨S8388608, .i32⟩
  | .hbm, ⟨32, _⟩ => ⟨S8388608, .i32⟩
  | .hbm, ⟨33, _⟩ => ⟨S8388608x1, .i32⟩
  | .hbm, ⟨34, _⟩ => ⟨S2x8388608, .f32⟩
  | .hbm, ⟨35, _⟩ => ⟨S1x1, .f32⟩
  | .hbm, ⟨36, _⟩ => ⟨S_, .f32⟩
  | .local _ .vmem, ⟨0, _⟩ => ⟨S2x16384, .f32⟩
  | .local _ .vmem, ⟨1, _⟩ => ⟨S2x16384, .f32⟩
  | .local _ .vmem, ⟨2, _⟩ => ⟨S2x16384, .f32⟩
  | .local _ .vmem, ⟨3, _⟩ => ⟨S2x16384, .f32⟩
  | .local _ .vmem, ⟨4, _⟩ => ⟨S2x16384, .f32⟩
  | .local _ .vmem, ⟨5, _⟩ => ⟨S2x16384, .f32⟩
  | .local _ .vmem, ⟨6, _⟩ => ⟨S1x1, .f32⟩
  | _, _ => ⟨S524288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_3 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![512], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x16384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  shapeCasts_S524288_S262144x2 : S524288.ShapeCasts S262144x2
  transposes_S262144x2_S2x262144_1_0 : S262144x2.Transposes [1, 0] S2x262144
  bcast_S_S8388608 : S_.BroadcastsInDim S8388608 (![] : Fin 0 → Fin S8388608.rank)
  bcast_S8388608_S8388608x1_0 : S8388608.BroadcastsInDim S8388608x1 (![0] : Fin 1 → Fin S8388608x1.rank)
  inb_S1x1_S1x1_0_0 : ∀ a, (![0, 0] : Fin 2 → Nat) a + S1x1.size a ≤ S1x1.size a
  h_S1x1 : 0 < S1x1.numel
  inb_S2x16384_S2x16384_0_0 : ∀ a, (![0, 0] : Fin 2 → Nat) a + S2x16384.size a ≤ S2x16384.size a
  h_S2x16384 : 0 < S2x16384.numel
  shapeCasts_S2x16384_S2x16384 : S2x16384.ShapeCasts S2x16384
  slices_S2x16384_o0_0_S1x16384 : S2x16384.Slices ![0, 0] S1x16384
  slices_S2x16384_o1_0_S1x16384 : S2x16384.Slices ![1, 0] S1x16384
  broadcasts_S1x16384_S2x16384 : S1x16384.Broadcasts S2x16384
  reduces_S1x16384_S1 : S1x16384.Reduces [1] S1
  shapeCasts_S1_S1x1 : S1.ShapeCasts S1x1
  shapeCasts_S1x1_S1x1 : S1x1.ShapeCasts S1x1
  shapeCasts_S1x1_S_ : S1x1.ShapeCasts S_
  gather_S2x262144_S8388608x1_S2x8388608_0_1_n_n_1_1_21_wf : GatherDims.WF S2x262144 S8388608x1 S2x8388608 [0] [1] [] [1] [] 1 ![2, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x16384.size a ≤ S2x8388608.size a
  hwx0_0 : ∀ i : grid0.Coords, EltTy.bits .f32 = 32 ∨ (Rect.block (s := S2x8388608) S2x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16384.size a ≤ S2x8388608.size a
  hwx0_1 : ∀ i : grid0.Coords, EltTy.bits .f32 = 32 ∨ (Rect.block (s := S2x8388608) S2x16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x16384.size a ≤ S2x8388608.size a
  hwx0_2 : ∀ i : grid0.Coords, EltTy.bits .f32 = 32 ∨ (Rect.block (s := S2x8388608) S2x16384.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S2x262144_S8388608x1_S2x8388608_0_1_n_n_1_1_21 : GatherDims S2x262144 S8388608x1 S2x8388608 where
  offsetDims := [0]
  collapsedSliceDims := [1]
  operandBatchingDims := []
  startIndicesBatchingDims := []
  startIndexMap := [1]
  indexVectorDim := 1
  sliceSizes := ![2, 1]
  wf := gather_S2x262144_S8388608x1_S2x8388608_0_1_n_n_1_1_21_wf

abbrev win0_0 : Pipeline.Window sig grid0 :=
  Pipeline.Window.ofSpec (Memref.whole main_v9) S2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S2x16384.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v24) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S524288 : Shape := ⟨1, ![524288]⟩
abbrev S262144x2 : Shape := ⟨2, ![262144, 2]⟩
abbrev S8388608 : Shape := ⟨1, ![8388608]⟩
abbrev S_ : Shape := ⟨0, ![]⟩
abbrev S8388608x1 : Shape := ⟨2, ![8388608, 1]⟩
abbrev S8388608x2 : Shape := ⟨2, ![8388608, 2]⟩

abbrev nBuf : Space → Nat
  | .hbm => 83
  | .vmem => 0
  | .smem => 0
  | _ => 0

abbrev bufTy : (tb : Table) → Fin (tcTables nBuf tb) → BufTy
  | .hbm, ⟨0, _⟩ => ⟨S524288, .f32⟩
  | .hbm, ⟨1, _⟩ => ⟨S262144x2, .f32⟩
  | .hbm, ⟨2, _⟩ => ⟨S8388608, .i32⟩
  | .hbm, ⟨3, _⟩ => ⟨S8388608, .i32⟩
  | .hbm, ⟨4, _⟩ => ⟨S8388608, .i32⟩
  | .hbm, ⟨5, _⟩ => ⟨S262144x2, .f32⟩
  | .hbm, ⟨6, _⟩ => ⟨S262144x2, .f32⟩
  | .hbm, ⟨7, _⟩ => ⟨S_, .i32⟩
  | .hbm, ⟨8, _⟩ => ⟨S8388608, .i32⟩
  | .hbm, ⟨9, _⟩ => ⟨S8388608, .i1⟩
  | .hbm, ⟨10, _⟩ => ⟨S_, .i32⟩
  | .hbm, ⟨11, _⟩ => ⟨S8388608, .i32⟩
  | .hbm, ⟨12, _⟩ => ⟨S8388608, .i32⟩
  | .hbm, ⟨13, _⟩ => ⟨S8388608, .i32⟩
  | .hbm, ⟨14, _⟩ => ⟨S8388608x1, .i32⟩
  | .hbm, ⟨15, _⟩ => ⟨S8388608x2, .f32⟩
  | .hbm, ⟨16, _⟩ => ⟨S_, .i32⟩
  | .hbm, ⟨17, _⟩ => ⟨S8388608, .i32⟩
  | .hbm, ⟨18, _⟩ => ⟨S8388608, .i1⟩
  | .hbm, ⟨19, _⟩ => ⟨S_, .i32⟩
  | .hbm, ⟨20, _⟩ => ⟨S8388608, .i32⟩
  | .hbm, ⟨21, _⟩ => ⟨S8388608, .i32⟩
  | .hbm, ⟨22, _⟩ => ⟨S8388608, .i32⟩
  | .hbm, ⟨23, _⟩ => ⟨S8388608x1, .i32⟩
  | .hbm, ⟨24, _⟩ => ⟨S8388608x2, .f32⟩
  | .hbm, ⟨25, _⟩ => ⟨S_, .i32⟩
  | .hbm, ⟨26, _⟩ => ⟨S8388608, .i32⟩
  | .hbm, ⟨27, _⟩ => ⟨S8388608, .i1⟩
  | .hbm, ⟨28, _⟩ => ⟨S_, .i32⟩
  | .hbm, ⟨29, _⟩ => ⟨S8388608, .i32⟩
  | .hbm, ⟨30, _⟩ => ⟨S8388608, .i32⟩
  | .hbm, ⟨31, _⟩ => ⟨S8388608, .i32⟩
  | .hbm, ⟨32, _⟩ => ⟨S8388608x1, .i32⟩
  | .hbm, ⟨33, _⟩ => ⟨S8388608x2, .f32⟩
  | .hbm, ⟨34, _⟩ => ⟨S8388608x2, .f32⟩
  | .hbm, ⟨35, _⟩ => ⟨S8388608x2, .f32⟩
  | .hbm, ⟨36, _⟩ => ⟨S8388608x2, .f32⟩
  | .hbm, ⟨37, _⟩ => ⟨S_, .f32⟩
  | .hbm, ⟨38, _⟩ => ⟨S8388608, .f32⟩
  | .hbm, ⟨39, _⟩ => ⟨S8388608x2, .f32⟩
  | .hbm, ⟨40, _⟩ => ⟨S_, .f32⟩
  | .hbm, ⟨41, _⟩ => ⟨S8388608, .f32⟩
  | .hbm, ⟨42, _⟩ => ⟨S_, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8388608, .f32⟩
  | .hbm, ⟨50, _⟩ => ⟨S8388608, .f32⟩
  | .hbm, ⟨51, _⟩ => ⟨S_, .f32⟩
  | .hbm, ⟨52, _⟩ => ⟨S8388608, .f32⟩
  | .hbm, ⟨53, _⟩ => ⟨S8388608, .f32⟩
  | .hbm, ⟨54, _⟩ => ⟨S8388608x1, .f32⟩
  | .hbm, ⟨55, _⟩ => ⟨S8388608x2, .f32⟩
  | .hbm, ⟨56, _⟩ => ⟨S8388608x2, .f32⟩
  | .hbm, ⟨57, _⟩ => ⟨S8388608x2, .f32⟩
  | .hbm, ⟨58, _⟩ => ⟨S8388608x2, .f32⟩
  | .hbm, ⟨59, _⟩ => ⟨S_, .f32⟩
  | .hbm, ⟨60, _⟩ => ⟨S8388608, .f32⟩
  | .hbm, ⟨61, _⟩ => ⟨S_, .f32⟩
  | .hbm, ⟨62, _⟩ => ⟨S8388608, .f32⟩
  | .hbm, ⟨63, _⟩ => ⟨S8388608, .f32⟩
  | .hbm, ⟨64, _⟩ => ⟨S_, .f32⟩
  | .hbm, ⟨65, _⟩ => ⟨S8388608, .f32⟩
  | .hbm, ⟨66, _⟩ => ⟨S8388608, .f32⟩
  | .hbm, ⟨67, _⟩ => ⟨S8388608, .f32⟩
  | .hbm, ⟨68, _⟩ => ⟨S8388608, .f32⟩
  | .hbm, ⟨69, _⟩ => ⟨S_, .f32⟩
  | .hbm, ⟨70, _⟩ => ⟨S8388608, .f32⟩
  | .hbm, ⟨71, _⟩ => ⟨S8388608, .f32⟩
  | .hbm, ⟨72, _⟩ => ⟨S8388608, .f32⟩
  | .hbm, ⟨73, _⟩ => ⟨S8388608, .f32⟩
  | .hbm, ⟨74, _⟩ => ⟨S_, .f32⟩
  | .hbm, ⟨75, _⟩ => ⟨S8388608, .f32⟩
  | .hbm, ⟨76, _⟩ => ⟨S8388608, .i1⟩
  | .hbm, ⟨77, _⟩ => ⟨S_, .f32⟩
  | .hbm, ⟨78, _⟩ => ⟨S_, .f32⟩
  | .hbm, ⟨79, _⟩ => ⟨S8388608, .f32⟩
  | .hbm, ⟨80, _⟩ => ⟨S8388608, .f32⟩
  | .hbm, ⟨81, _⟩ => ⟨S_, .f32⟩
  | .hbm, ⟨82, _⟩ => ⟨S_, .f32⟩
  | _, _ => ⟨S524288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_cst_8 : Ref sig .tc := ⟨.hbm, 47, rfl⟩
abbrev main_call0_v0 : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_9 : Ref sig .tc := ⟨.hbm, 59, rfl⟩
abbrev main_v38 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_cst_11 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_12 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_13 : Ref sig .tc := ⟨.hbm, 74, rfl⟩
abbrev main_v49 : Ref sig .tc := ⟨.hbm, 75, rfl⟩
abbrev main_v50 : Ref sig .tc := ⟨.hbm, 76, rfl⟩
abbrev main_cst_14 : Ref sig .tc := ⟨.hbm, 77, rfl⟩
abbrev main_call1_v0 : Ref sig .tc := ⟨.hbm, 78, rfl⟩
abbrev main_call1_v1 : Ref sig .tc := ⟨.hbm, 79, rfl⟩
abbrev main_v51 : Ref sig .tc := ⟨.hbm, 80, rfl⟩
abbrev main_cst_15 : Ref sig .tc := ⟨.hbm, 81, rfl⟩
abbrev main_v52 : Ref sig .tc := ⟨.hbm, 82, rfl⟩

abbrev nD : Nat := 1
abbrev τ : Topo := Topo.v7x

variable {F : FTy → Type} [FloatOps F]

class Facts₀ : Prop where
  shapeCasts_S524288_S262144x2 : S524288.ShapeCasts S262144x2
  bcast_S_S8388608 : S_.BroadcastsInDim S8388608 (![] : Fin 0 → Fin S8388608.rank)
  bcast_S8388608_S8388608x1_0 : S8388608.BroadcastsInDim S8388608x1 (![0] : Fin 1 → Fin S8388608x1.rank)
  reducesTo_S8388608x2_S8388608_d1 : S8388608x2.ReducesTo [1] S8388608
  h_S_ : 0 < S_.numel
  bcast_S8388608x1_S8388608x2_0_1 : S8388608x1.BroadcastsInDim S8388608x2 (![0, 1] : Fin 2 → Fin S8388608x2.rank)
  reducesTo_S8388608_S_d0 : S8388608.ReducesTo [0] S_
  gather_S262144x2_S8388608x1_S8388608x2_1_0_n_n_0_1_12_wf : GatherDims.WF S262144x2 S8388608x1 S8388608x2 [1] [0] [] [0] [] 1 ![1, 2]

variable [Facts₀]

def gather_S262144x2_S8388608x1_S8388608x2_1_0_n_n_0_1_12 : GatherDims S262144x2 S8388608x1 S8388608x2 where
  offsetDims := [1]
  collapsedSliceDims := [0]
  operandBatchingDims := []
  startIndicesBatchingDims := []
  startIndexMap := [0]
  indexVectorDim := 1
  sliceSizes := ![1, 2]
  wf := gather_S262144x2_S8388608x1_S8388608x2_1_0_n_n_0_1_12_wf

class Facts : Prop extends Facts₀ where

variable [Facts]
-- ==== Proof.PairEnergy.lean ====
/-
  The quantity both programs compute, stated once, over the extended reals.

  A table of 262144 points of the plane is the sum of two arrays (rest positions and displacements, the second given
  flat and read two numbers per point). Each of the 8388608 candidates names three points of the table by a machine
  word: a vertex `p` and the two ends `a`, `b` of an edge. A word is read as a signed integer, a negative one counted from
  the end of the table, and the outcome is clamped into the table. The candidate's term is a barrier of the squared
  distance from `p` to the segment `[a, b]`:

      e = b - a,  q = p - a,  t = min 1 (max 0 (q·e / max (e·e) ε)),  d = q - t e,  d2 = d·d,
      term = if d2 < δ then (0 - (max d2 ε - δ)²) · log (max d2 ε / δ) else 0,

  with `ε`, `δ` two fixed numbers (kept as the words that denote them). The result is the sum of the terms.

  Also here: the two laws about finite sums that join the two programs' orders of summation — a sum over `m * n`
  positions is the sum over `m` blocks of the sums over the `n` positions of a block, and a total kept block after block
  from zero is the sum over the blocks. Both hold in any commutative monoid: no finiteness of a term is needed.
-/
import Idealize.ShloMosaic.PureOps.Ideal
import Idealize.ShloMosaic.PureOps.Ideal.Laws
import Idealize.ShloMosaic.Lib.ValueIdx

noncomputable section

namespace Cert.PairEnergy

open Idealize.ShloMosaic Idealize.ShloMosaic.ValueIdx

/-! ## The shapes and the four numbers -/

abbrev SFlat : Shape := ⟨1, ![524288]⟩
abbrev STable : Shape := ⟨2, ![262144, 2]⟩
abbrev SPairs : Shape := ⟨1, ![8388608]⟩

/-- The floor under a squared length, `ε`. -/
abbrev epsLit : EReal := Ideal.ofBits .f32 0x2B8CBCCC#32
/-- The squared activation distance, `δ`. -/
abbrev dhat2Lit : EReal := Ideal.ofBits .f32 0x3B23D70A#32
abbrev zeroLit : EReal := Ideal.ofBits .f32 0x00000000#32
abbrev oneLit : EReal := Ideal.ofBits .f32 0x3F800000#32

/-! ## One candidate's term -/

/-- Where on the line through the edge `e` the point `q` projects, clipped to the segment: `q·e / max (e·e) ε` kept in `[0, 1]`. -/
def clipParam (e0 e1 q0 q1 : EReal) : EReal :=
  min oneLit (max zeroLit (Ideal.div (q0 * e0 + q1 * e1) (max (e0 * e0 + e1 * e1) epsLit)))

/-- The squared distance from `q` to the segment from the origin to `e`. -/
def sqDist (e0 e1 q0 q1 : EReal) : EReal :=
  (q0 - clipParam e0 e1 q0 q1 * e0) * (q0 - clipParam e0 e1 q0 q1 * e0)
    + (q1 - clipParam e0 e1 q0 q1 * e1) * (q1 - clipParam e0 e1 q0 q1 * e1)

/-- The barrier of a squared distance: `(0 - (max d2 ε - δ)²) · log (max d2 ε / δ)` below `δ`, zero from `δ` on. -/
def barrier (d2 : EReal) : EReal :=
  Scalar.select (Ideal.cmp .olt d2 dhat2Lit)
    ((zeroLit - (max d2 epsLit - dhat2Lit) * (max d2 epsLit - dhat2Lit)) * Ideal.log (Ideal.div (max d2 epsLit) dhat2Lit))
    zeroLit

/-- A candidate's term from the coordinates of its three points. -/
def pairTerm (p0 p1 a0 a1 b0 b1 : EReal) : EReal :=
  barrier (sqDist (b0 - a0) (b1 - a1) (p0 - a0) (p1 - a1))

/-! ## The table and the words that index it -/

/-- Coordinate `k` of point `n`: the rest position plus the displacement, the latter at `2 n + k` of the flat array. -/
def coordAt (x0 : SFlat.Idx → EReal) (x1 : STable.Idx → EReal) (n : Fin 262144) (k : Fin 2) : EReal :=
  x1 (ix2 n k) + x0 (ix1 ⟨n.val * 2 + k.val, by have := n.isLt; have := k.isLt; omega⟩)

/-- A word as an index of the table: 262144 added to a negative one, then the signed value clamped into `[0, 262143]`. -/
def wrapWord (w : BitVec 32) : BitVec 32 :=
  Scalar.select (IntOp.cmpi .slt w 0#32) (IntOp.addi w 262144#32) w

def vertex (w : BitVec 32) : Fin 262144 :=
  ⟨min (wrapWord w).toInt.toNat (262144 - 1), by omega⟩

/-- The term of the candidate whose three words are `wv`, `wa`, `wb`. -/
def pairEnergy (x0 : SFlat.Idx → EReal) (x1 : STable.Idx → EReal) (wv wa wb : BitVec 32) : EReal :=
  pairTerm (coordAt x0 x1 (vertex wv) 0) (coordAt x0 x1 (vertex wv) 1)
    (coordAt x0 x1 (vertex wa) 0) (coordAt x0 x1 (vertex wa) 1)
    (coordAt x0 x1 (vertex wb) 0) (coordAt x0 x1 (vertex wb) 1)

/-- The sum over the candidates. -/
def totalEnergy (x0 : SFlat.Idx → EReal) (x1 : STable.Idx → EReal) (x2 x3 x4 : SPairs.Idx → BitVec 32) : EReal :=
  ∑ j : Fin 8388608, pairEnergy x0 x1 (x2 (ix1 j)) (x3 (ix1 j)) (x4 (ix1 j))

/-! ## Two laws of finite sums -/

/-- A sum over `m * n` positions, block by block: position `t * n + l` is place `l` of block `t`. -/
theorem sum_by_blocks {M : Type} [AddCommMonoid M] (m n N : ℕ) (hN : N = m * n) (f : Fin N → M) :
    ∑ j : Fin N, f j = ∑ t : Fin m, ∑ l : Fin n, f ⟨t.val * n + l.val, by
      subst hN
      exact Nat.lt_of_lt_of_le (Nat.add_lt_add_left l.isLt _) (by rw [← Nat.succ_mul]; exact Nat.mul_le_mul_right n t.isLt)⟩ := by
  subst hN
  rw [← (finProdFinEquiv (m := m) (n := n)).sum_comp f, Fintype.sum_prod_type]
  refine Finset.sum_congr rfl fun t _ => Finset.sum_congr rfl fun l _ => ?_
  refine congrArg f (Fin.ext ?_)
  show l.val + n * t.val = t.val * n + l.val
  rw [Nat.mul_comm, Nat.add_comm]

/-- A total kept block after block: zero plus the first block, then each next block added. -/
def runningSum (g : ℕ → EReal) : ℕ → EReal
  | 0 => zeroLit + g 0
  | n + 1 => runningSum g n + g (n + 1)

/-- It is the sum of the blocks so far. -/
theorem runningSum_eq (g : ℕ → EReal) (n : ℕ) : runningSum g n = ∑ t ∈ Finset.range (n + 1), g t := by
  induction n with
  | zero => simp [runningSum, Ideal.ofBits_zero_f32]
  | succ n ih => rw [runningSum, ih, Finset.sum_range_succ _ (n + 1)]

end Cert.PairEnergy

end
-- ==== Proof.KernelLane.lean ====
/-
  What one grid point of the kernel adds to its one-word accumulator, read at the ideal instance.

  The body loads a `[2, 16384]` block of each of the three gathered arrays — the vertices `p`, the edges' first ends `a`
  and second ends `b`, coordinate by row and candidate by lane —, forms `e = b - a` and `q = p - a`, takes rows 0 and 1 apart
  for the dot products, broadcasts the clipped parameter back over the two rows, and ends with the masked barrier of each
  lane. It then sums the 16384 lanes and adds the sum to the word it found in the accumulator. Lane by lane this is the
  term of the candidate in that lane, so the stored word is the accumulator's plus the block's sum of terms.
-/
import proofs.«107758_j21869973471370_1_alg».proof.Proof.Gen.KernelIdeal.Skeleton
import proofs.«107758_j21869973471370_1_alg».proof.Proof.PairEnergy
import Idealize.ShloMosaic.Lib.ValueLayout
import Idealize.ShloMosaic.PureOps.Ideal.Laws

noncomputable section

namespace Cert.KernelIdeal.Lane

open Cert.KernelIdeal Cert.KernelIdeal.Gen Idealize.ShloMosaic Idealize.ShloMosaic.ValueIdx Cert.PairEnergy

/-! ## The layout operations of the body, at an index -/

/-- Row 0 of a `[2, 16384]` value, as a `[1, 16384]` one. -/
theorem row0_apply (X : FVec Ideal S2x16384 .f32) (h : S2x16384.Slices ![0, 0] S1x16384) (l : Fin 16384) :
    extractStridedSlice S1x16384 ![0, 0] X h (ix2 (0 : Fin 1) l) = X (ix2 (0 : Fin 2) l) :=
  slice2_axis0_apply 0 X h 0 l 0 rfl

/-- Row 1 likewise. -/
theorem row1_apply (X : FVec Ideal S2x16384 .f32) (h : S2x16384.Slices ![1, 0] S1x16384) (l : Fin 16384) :
    extractStridedSlice S1x16384 ![1, 0] X h (ix2 (0 : Fin 1) l) = X (ix2 (1 : Fin 2) l) :=
  slice2_axis0_apply 1 X h 0 l 1 rfl

/-- One row broadcast over two. -/
theorem rows_apply (v : FVec Ideal S1x16384 .f32) (h : S1x16384.Broadcasts S2x16384) (k : Fin 2) (l : Fin 16384) :
    broadcastTo S2x16384 v h (ix2 k l) = v (ix2 (0 : Fin 1) l) :=
  broadcastTo_1b_ab_apply v h k l

/-! ## The lanes -/

variable (x0 x1 x2 : FVec Ideal S2x16384 .f32)

/-- The squared distance of the candidate in lane `l`. -/
theorem sqDist_apply (l : Fin 16384) :
    k0_pay3 (F := Ideal) x0 x1 x2 (ix2 (0 : Fin 1) l)
      = sqDist (x2 (ix2 0 l) - x1 (ix2 0 l)) (x2 (ix2 1 l) - x1 (ix2 1 l))
          (x0 (ix2 0 l) - x1 (ix2 0 l)) (x0 (ix2 1 l) - x1 (ix2 1 l)) := by
  unfold k0_pay3 sqDist clipParam
  simp only [shapeCast_self, addf_apply, mulf_apply, subf_apply, divf_apply, maximumf_apply, minimumf_apply,
    broadcast_apply, row0_apply, row1_apply, rows_apply, Ideal.ofBits_def]

/-- The same kept above `ε`. -/
theorem floored_apply (l : Fin 16384) :
    k0_pay4 (F := Ideal) x0 x1 x2 (ix2 (0 : Fin 1) l) = max (k0_pay3 (F := Ideal) x0 x1 x2 (ix2 (0 : Fin 1) l)) epsLit := by
  unfold k0_pay4
  rfl

/-- Zero less the squared excess over `δ`. -/
theorem negSq_apply (l : Fin 16384) :
    k0_pay5 (F := Ideal) x0 x1 x2 (ix2 (0 : Fin 1) l)
      = zeroLit - (k0_pay4 (F := Ideal) x0 x1 x2 (ix2 (0 : Fin 1) l) - dhat2Lit) * (k0_pay4 (F := Ideal) x0 x1 x2 (ix2 (0 : Fin 1) l) - dhat2Lit) := by
  unfold k0_pay5
  rfl

/-- The masked barrier of lane `l` is the candidate's term. -/
theorem masked_apply (l : Fin 16384) :
    select (cmpf .olt (k0_pay3 (F := Ideal) x0 x1 x2) (broadcast S1x16384 (Scalar.ofBits .f32 0x3B23D70A#32)))
        (mulf (k0_pay5 (F := Ideal) x0 x1 x2)
          (log (divf (k0_pay4 (F := Ideal) x0 x1 x2) (broadcast S1x16384 (Scalar.ofBits .f32 0x3B23D70A#32)))))
        (broadcast S1x16384 (Scalar.ofBits .f32 0x00000000#32)) (ix2 (0 : Fin 1) l)
      = pairTerm (x0 (ix2 0 l)) (x0 (ix2 1 l)) (x1 (ix2 0 l)) (x1 (ix2 1 l)) (x2 (ix2 0 l)) (x2 (ix2 1 l)) := by
  unfold pairTerm barrier
  rw [← sqDist_apply x0 x1 x2 l]
  show Scalar.select (Ideal.cmp .olt (k0_pay3 (F := Ideal) x0 x1 x2 (ix2 (0 : Fin 1) l)) dhat2Lit)
      (k0_pay5 (F := Ideal) x0 x1 x2 (ix2 (0 : Fin 1) l)
        * Ideal.log (Ideal.div (k0_pay4 (F := Ideal) x0 x1 x2 (ix2 (0 : Fin 1) l)) dhat2Lit)) zeroLit = _
  rw [negSq_apply, floored_apply]

/-! ## The lane sum and the stored word -/

/-- A lane sum over a `[1, 16384]` value, at its one index: the sum over the lanes. -/
theorem laneSum_apply (v : FVec Ideal S1x16384 .f32) (h : S1x16384.Reduces [1] S1) (hφ : FKind.Formats .f32)
    (hacc : (0x00000000#32 : BitVec 32) = 0x00000000#32) :
    multiReduction .add [1] S1 v 0x00000000#32 h hφ hacc (ix1 (0 : Fin 1)) = ∑ l : Fin 16384, v (ix2 (0 : Fin 1) l) := by
  refine (Ideal.multiReduction_add_single v 0x00000000#32 h hφ hacc (ix1 (0 : Fin 1))).trans ?_
  refine Finset.sum_congr rfl fun l _ => congrArg v (funext fun a => Fin.ext ?_)
  match a with
  | ⟨0, _⟩ => rfl
  | ⟨1, _⟩ => rfl

/-- The word the body stores: the word it found plus the sum of the terms of the block's 16384 candidates. -/
theorem stored_apply (xo : FVec Ideal S1x1 .f32) :
    k0_pay1 (F := Ideal) (k0_pay3 (F := Ideal) x0 x1 x2) (k0_pay4 (F := Ideal) x0 x1 x2) (k0_pay5 (F := Ideal) x0 x1 x2)
        (Scalar.ofBits .f32 0x3B23D70A#32) xo (ix2 (0 : Fin 1) (0 : Fin 1))
      = xo (ix2 0 0) + ∑ l : Fin 16384,
          pairTerm (x0 (ix2 0 l)) (x0 (ix2 1 l)) (x1 (ix2 0 l)) (x1 (ix2 1 l)) (x2 (ix2 0 l)) (x2 (ix2 1 l)) := by
  unfold k0_pay1
  simp only [shapeCast_self]
  refine congrArg (xo (ix2 0 0) + ·) ?_
  refine (shapeCast_a_1a_apply _ _ (0 : Fin 1) (0 : Fin 1)).trans ?_
  refine (laneSum_apply _ _ _ _).trans ?_
  exact Finset.sum_congr rfl fun l _ => masked_apply x0 x1 x2 l

end Cert.KernelIdeal.Lane

end
-- ==== Proof.KernelCases.lean ====
/-
  What the kernel body leaves in its one-word output block, case by case.

  The body has two control cases. At the first grid point it stores a zero into the output block, reads the block
  back, and stores the sum of that word and the block's lane sum. At every later point it reads the word the point before
  left and stores its sum with the lane sum. In both cases the stored value is one function of the three input blocks and
  of the word read (`stored`); the first case reads the zero it has just written.
-/
import proofs.«107758_j21869973471370_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.CaseValue

open Cert.KernelIdeal Cert.KernelIdeal.Gen

variable {F : FTy → Type} [FloatOps F]

theorem hz : (![0, 0] : Fin 2 → Nat) = fun _ => 0 := funext fun a => by fin_cases a <;> rfl

/-- The value of the body's last store: from the blocks of `p`, `a`, `b` and the word `xo` found in the output block. -/
abbrev stored (x0 x1 x2 : Vec F S2x16384 .f32) (xo : Vec F S1x1 .f32) : Vec F S1x1 .f32 :=
  k0_pay1 (k0_pay3 x0 x1 x2) (k0_pay4 x0 x1 x2) (k0_pay5 x0 x1 x2) (Scalar.ofBits .f32 0x3B23D70A#32) xo

/-- A later point: one store covers the block, its value read off the whole input buffers and the word left before. -/
theorem out_later (c : Dev nD) (i : grid0.Coords) (a1 : Memref sig .tc .vmem S2x16384 .f32) (h1 : a1.IsWhole)
    (a2 : Memref sig .tc .vmem S2x16384 .f32) (h2 : a2.IsWhole) (a3 : Memref sig .tc .vmem S2x16384 .f32) (h3 : a3.IsWhole)
    (a4 : Memref sig .tc .vmem S1x1 .f32) (h4 : a4.IsWhole) (hc : ¬cond0_0 i)
    (x0 x1 x2 : Vec F S2x16384 .f32) (xo : Vec F S1x1 .f32) :
    out0_B_3 c i a1 h1 a2 h2 a3 h3 a4 h4 hc x0 x1 x2 xo = stored x0 x1 x2 xo := by
  unfold out0_B_3
  rw [View.read_writes_eq_canon _ _ _ (cover0_B_3 c i a1 h1 a2 h2 a3 h3 a4 h4 hc x0 x1 x2 xo)]
  unfold kernelRun0_B
  dsimp only
  sl_unfold_words
  rw [View.canon_unit_zero hz]
  simp only [View.readAt_eq_ld, h1.read_unread, h2.read_unread, h3.read_unread, h4.read_unread,
    View.ld_unit_zero (S := S2x16384) hz, View.ld_unit_zero (S := S1x1) hz]

/-- The first point: the zero store, then the same store over the zero read back. -/
theorem out_first (c : Dev nD) (i : grid0.Coords) (a1 : Memref sig .tc .vmem S2x16384 .f32) (h1 : a1.IsWhole)
    (a2 : Memref sig .tc .vmem S2x16384 .f32) (h2 : a2.IsWhole) (a3 : Memref sig .tc .vmem S2x16384 .f32) (h3 : a3.IsWhole)
    (a4 : Memref sig .tc .vmem S1x1 .f32) (h4 : a4.IsWhole) (hc : cond0_0 i)
    (x0 x1 x2 : Vec F S2x16384 .f32) :
    out0_A_3 c i a1 h1 a2 h2 a3 h3 a4 h4 hc x0 x1 x2 = stored x0 x1 x2 (k0_pay2 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread,
    View.ld_unit_zero (S := S2x16384) hz, View.ld_unit_zero (S := S1x1) hz]

end Cert.KernelIdeal.CaseValue

end
-- ==== Proof.KernelSum.lean ====
/-
  The kernel's result: the accumulator after the last grid point, through the closing reshape.

  Grid point `t` stages block `t` — lanes `16384 t … 16384 t + 16383` — of each of the three gathered arrays, and the body
  adds that block's sum of terms to the word the point before left (the first point to a zero it stores itself). So
  after point `n` the output block holds the running sum of the block sums up to `n`, by induction on the point; the
  block is written back once, after the last point, and the program's result is that word reshaped to a scalar.
-/
import proofs.«107758_j21869973471370_1_alg».proof.Proof.Gen.KernelIdeal.Frame
import proofs.«107758_j21869973471370_1_alg».proof.Proof.PairEnergy
import proofs.«107758_j21869973471370_1_alg».proof.Proof.KernelLane
import proofs.«107758_j21869973471370_1_alg».proof.Proof.KernelCases
import Idealize.ShloMosaic.Lib.Pipeline.Value
import Idealize.ShloMosaic.Lib.StableHlo.Run

noncomputable section

namespace Cert.KernelIdeal.Accum

open Cert.KernelIdeal Cert.KernelIdeal.Gen Idealize.ShloMosaic Idealize.ShloMosaic.TcCoe Idealize.SL.Sem
open Idealize.ShloMosaic.Pipeline (Dat)
open Idealize.ShloMosaic.ValueIdx Cert.PairEnergy

/-! ## The terms of a block, over the three arrays -/

/-- The term of candidate `j`, from column `j` of the arrays of vertices, first ends and second ends. -/
def candTerm (P A B : FVec Ideal S2x8388608 .f32) (j : Fin 8388608) : EReal :=
  pairTerm (P (ix2 0 j)) (P (ix2 1 j)) (A (ix2 0 j)) (A (ix2 1 j)) (B (ix2 0 j)) (B (ix2 1 j))

/-- The sum of the terms of block `t`: candidates `16384 t + l`, `l < 16384`. -/
def blockSum (P A B : FVec Ideal S2x8388608 .f32) (t : ℕ) : EReal :=
  if h : t < 512 then ∑ l : Fin 16384, candTerm P A B ⟨t * 16384 + l.val, by have := l.isLt; omega⟩ else 0

/-- The block sums kept as a running total from zero, up to the last block, make the sum over all candidates. -/
theorem runningSum_blocks (P A B : FVec Ideal S2x8388608 .f32) :
    runningSum (blockSum P A B) 511 = ∑ j : Fin 8388608, candTerm P A B j := by
  rw [runningSum_eq, Finset.sum_range, sum_by_blocks 512 16384 8388608 rfl (candTerm P A B)]
  refine Finset.sum_congr rfl fun t _ => ?_
  unfold blockSum
  rw [dif_pos t.isLt]

variable (m : (ℓ : Loc nD τ sig) → Buf (Elt Ideal) ℓ) (ρ : Dev nD → PrngReg)

/-! ## The staged blocks are blocks of the arrays -/

/-- The three arrays as the region finds them, -/
abbrev arrP (c : Dev nD) : FVec Ideal S2x8388608 .f32 := V m c main_v9
abbrev arrA (c : Dev nD) : FVec Ideal S2x8388608 .f32 := V m c main_v16
abbrev arrB (c : Dev nD) : FVec Ideal S2x8388608 .f32 := V m c main_v23
/-- and their blocks at point `t`. -/
abbrev blkP (c : Dev nD) (t : Fin cfg0.N) : FVec Ideal S2x16384 .f32 := iblk m c 0 t
abbrev blkA (c : Dev nD) (t : Fin cfg0.N) : FVec Ideal S2x16384 .f32 := iblk m c 1 t
abbrev blkB (c : Dev nD) (t : Fin cfg0.N) : FVec Ideal S2x16384 .f32 := iblk m c 2 t

/-- Every input window's block index at point `t` is `(0, t)`. -/
theorem idx_facts : ∀ t : Fin cfg0.N,
    (win0_0.index t 0 = 0 ∧ win0_0.index t 1 = t.val) ∧ (win0_1.index t 0 = 0 ∧ win0_1.index t 1 = t.val)
      ∧ (win0_2.index t 0 = 0 ∧ win0_2.index t 1 = t.val) :=
  (by decide +kernel : ∀ t : Fin grid0.N,
    (win0_0.index t 0 = 0 ∧ win0_0.index t 1 = t.val) ∧ (win0_1.index t 0 = 0 ∧ win0_1.index t 1 = t.val)
      ∧ (win0_2.index t 0 = 0 ∧ win0_2.index t 1 = t.val))

theorem lane_lt (t : Fin cfg0.N) (l : Fin 16384) : t.val * 16384 + l.val < 8388608 := by
  have := t.isLt; have hN : cfg0.N = 512 := N_0; have := l.isLt; omega

theorem blkP_apply (c : Dev nD) (t : Fin cfg0.N) (k : Fin 2) (l : Fin 16384) :
    blkP m c t (ix2 k l) = arrP m c (ix2 k ⟨t.val * 16384 + l.val, lane_lt t l⟩) := by
  show iblk m c 0 t (ix2 k l) = _
  unfold iblk
  rw [View.read_apply]
  show V m c main_v9 _ = V m c main_v9 _
  congr 1
  funext a
  apply Fin.ext
  match a with
  | ⟨0, _⟩ => show win0_0.index t 0 * 2 + 1 * k.val = k.val; rw [(idx_facts t).1.1]; omega
  | ⟨1, _⟩ => show win0_0.index t 1 * 16384 + 1 * l.val = t.val * 16384 + l.val; rw [(idx_facts t).1.2]; omega

theorem blkA_apply (c : Dev nD) (t : Fin cfg0.N) (k : Fin 2) (l : Fin 16384) :
    blkA m c t (ix2 k l) = arrA m c (ix2 k ⟨t.val * 16384 + l.val, lane_lt t l⟩) := by
  show iblk m c 1 t (ix2 k l) = _
  unfold iblk
  rw [View.read_apply]
  show V m c main_v16 _ = V m c main_v16 _
  congr 1
  funext a
  apply Fin.ext
  match a with
  | ⟨0, _⟩ => show win0_1.index t 0 * 2 + 1 * k.val = k.val; rw [(idx_facts t).2.1.1]; omega
  | ⟨1, _⟩ => show win0_1.index t 1 * 16384 + 1 * l.val = t.val * 16384 + l.val; rw [(idx_facts t).2.1.2]; omega

theorem blkB_apply (c : Dev nD) (t : Fin cfg0.N) (k : Fin 2) (l : Fin 16384) :
    blkB m c t (ix2 k l) = arrB m c (ix2 k ⟨t.val * 16384 + l.val, lane_lt t l⟩) := by
  show iblk m c 2 t (ix2 k l) = _
  unfold iblk
  rw [View.read_apply]
  show V m c main_v23 _ = V m c main_v23 _
  congr 1
  funext a
  apply Fin.ext
  match a with
  | ⟨0, _⟩ => show win0_2.index t 0 * 2 + 1 * k.val = k.val; rw [(idx_facts t).2.2.1]; omega
  | ⟨1, _⟩ => show win0_2.index t 1 * 16384 + 1 * l.val = t.val * 16384 + l.val; rw [(idx_facts t).2.2.2]; omega

/-! ## One point, then all of them -/

/-- The one index of the output block. -/
theorem idx_one (y : S1x1.Idx) : y = ix2 (0 : Fin 1) (0 : Fin 1) :=
  funext fun a => Fin.ext (by
    match a with
    | ⟨0, _⟩ => have h : (y 0).val < 1 := (y 0).isLt; show (y 0).val = 0; omega
    | ⟨1, _⟩ => have h : (y 1).val < 1 := (y 1).isLt; show (y 1).val = 0; omega)

/-- What point `t` stores, over the word `xo` it found: that word plus block `t`'s sum of terms. -/
theorem stored_block (c : Dev nD) (t : Fin cfg0.N) (xo : FVec Ideal S1x1 .f32) (y : S1x1.Idx) :
    CaseValue.stored (F := Ideal) (blkP m c t) (blkA m c t) (blkB m c t) xo y
      = xo (ix2 0 0) + blockSum (arrP m c) (arrA m c) (arrB m c) t.val := by
  obtain rfl := idx_one y
  refine (Lane.stored_apply (blkP m c t) (blkA m c t) (blkB m c t) xo).trans ?_
  refine congrArg (xo (ix2 0 0) + ·) ?_
  have ht : t.val < 512 := by have := t.isLt; have hN : cfg0.N = 512 := N_0; omega
  unfold blockSum
  rw [dif_pos ht]
  refine Finset.sum_congr rfl fun l _ => ?_
  unfold candTerm
  rw [blkP_apply, blkP_apply, blkA_apply, blkA_apply, blkB_apply, blkB_apply]

/-- After point `n` the output block holds the running sum of the block sums up to `n`. -/
theorem outsAt_eq (c : Dev nD) : ∀ (n : ℕ) (h : n < cfg0.N),
    outsAt0 m c n h = fun _ => runningSum (blockSum (arrP m c) (arrA m c) (arrB m c)) n
  | 0, h => by
    refine (outsAt0_A m c ⟨0, h⟩ rfl).trans ?_
    refine (CaseValue.out_first ..).trans ?_
    funext y
    exact stored_block m c ⟨0, h⟩ (k0_pay2 (F := Ideal)) y
  | n + 1, h => by
    have hN : cfg0.N = 512 := N_0
    have hB : ¬(⟨n + 1, h⟩ : Fin cfg0.N).val % 512 = 0 := by dsimp only; omega
    rw [outsAt0_B m c ⟨n + 1, h⟩ hB, CaseValue.out_later]
    funext y
    refine (stored_block m c ⟨n + 1, h⟩ _ y).trans ?_
    show outsAt0 m c n _ (ix2 0 0) + _ = _
    rw [outsAt_eq c n]
    rfl

/-! ## The result array, the closing reshape, the run -/

/-- The word after the last point. -/
def total (c : Dev nD) : EReal := runningSum (blockSum (arrP m c) (arrA m c) (arrB m c)) 511

abbrev tLast : Fin cfg0.N := ⟨511, by rw [show cfg0.N = 512 from N_0]; decide⟩

/-- The one write-back, after point 511, writes it. -/
theorem flushed_eq (c : Dev nD) (t : Fin cfg0.N) (hf : (cfg0.win 3).flush t = true) :
    (dats m 0 c).flushed 3 t = ((cfg0.win 3).blk t).view.read (Elt Ideal) (fun _ => total m c) := by
  have hN : cfg0.N = 512 := N_0
  have h511 : t.val = 511 := by have := (flush0_3 t).mp hf; have := t.isLt; omega
  obtain rfl : t = tLast := Fin.ext h511
  show (cfg0.win 3).cut (grid0.coords tLast) ((dats m 0 c).after 3 tLast) = _
  rw [after0_3, outsAt_eq]
  rfl

/-- So the output array ends holding it. -/
theorem final_o (c : Dev nD) : (dats m 0 c).arrAt 3 cfg0.N = fun _ => total m c :=
  (dats m 0 c).arrAt_eq_of_cover 3 (fun _ => total m c) (flushed_eq m c) fun i =>
    ⟨tLast, (flush0_3 tLast).mpr rfl, by
      show i ∈ ((View.whole main_v24).slice (win0_3.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_3.index tLast 0 * win0_3.size 0 ≤ (i 0 : Nat) ∧ (i 0 : Nat) < win0_3.index tLast 0 * win0_3.size 0 + win0_3.xsize (grid0.coords tLast) 0
                  rw [show win0_3.index tLast 0 * win0_3.size 0 = 0 from by decide +kernel, show win0_3.xsize (grid0.coords tLast) 0 = 1 from by decide +kernel]; omega
      | ⟨1, _⟩ => show win0_3.index tLast 1 * win0_3.size 1 ≤ (i 1 : Nat) ∧ (i 1 : Nat) < win0_3.index tLast 1 * win0_3.size 1 + win0_3.xsize (grid0.coords tLast) 1
                  rw [show win0_3.index tLast 1 * win0_3.size 1 = 0 from by decide +kernel, show win0_3.xsize (grid0.coords tLast) 1 = 1 from by decide +kernel]; omega⟩

/-- The closing reshape of the one-word array to a scalar keeps the word. -/
theorem tail_eq (c : Dev nD) :
    Pipeline.afterTail₀ cfgs (dats m) 0 (V0 m) [hostOps1] c main_v25 = fun _ => total m c := by
  unfold Pipeline.afterTail₀
  show StableHlo.after hostOps1 _ (Proc.devRef .tc main_v25) = _
  after_results
  rw [(Pipeline.withArrays_arr spec0 launch0.win.arr_inj c _ _ 3).trans (final_o m c)]
  rfl

/-- The run, read: the result at the running sum after the last point, the arguments unchanged. -/
theorem run : θ_run defs (onTc (τ := τ) (main (F := Ideal))) ⟨m, fun _ => 0, ρ⟩ fun r => ∀ c : Dev nD,
      r.2.mem ((c.tc : Thread nD τ).loc main_v25) = (fun _ => total m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v25 (Pipeline.mem_restRefs_of main_v25 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Accum

end
-- ==== Proof.LibGatherTable.lean ====
/-
  GENERAL LEMMAS — a gather of one row or one column of a two-axis table, read at an index.

  `table[idx]` over the rows of an `[N, 2]` table, and `table[:, idx]` over the columns of a `[2, N]` table, are each one
  gather whose start indices form a `[P, 1]` array: result element `(j, k)` (resp. `(k, j)`) is the table's element on row
  (resp. column) `idx[j, 0]` — read as a signed integer and clamped into `[0, N - 1]`, as every gather clamps its start —
  at the other coordinate `k`. The two lemmas say so with the indices written by coordinates.
-/
import Idealize.ShloMosaic.PureOps.ShapeOps
import Idealize.ShloMosaic.Lib.ValueIdx

namespace Cert.GatherRead

open Idealize.ShloMosaic Idealize.ShloMosaic.ValueIdx

variable {α : Type}

/-! ## Columns of a `[2, N]` table -/

/-- The dimension numbers of `table[:, idx]`: the result's axis 0 runs over the kept axis 0 of the table, the index names
    a position on axis 1, which is collapsed. -/
abbrev colDims (N P : Nat) (wf : GatherDims.WF ⟨2, ![2, N]⟩ ⟨2, ![P, 1]⟩ ⟨2, ![2, P]⟩ [0] [1] [] [1] [] 1 ![2, 1]) :
    GatherDims ⟨2, ![2, N]⟩ ⟨2, ![P, 1]⟩ ⟨2, ![2, P]⟩ where
  offsetDims := [0]
  collapsedSliceDims := [1]
  operandBatchingDims := []
  startIndicesBatchingDims := []
  startIndexMap := [1]
  indexVectorDim := 1
  sliceSizes := ![2, 1]
  wf := wf

/-- Result element `(k, j)` is the table at `(k, clamp idx[j, 0])`. -/
theorem gather_cols_apply {N P w : Nat} (hN : 0 < N)
    (wf : GatherDims.WF ⟨2, ![2, N]⟩ ⟨2, ![P, 1]⟩ ⟨2, ![2, P]⟩ [0] [1] [] [1] [] 1 ![2, 1])
    (x : (⟨2, ![2, N]⟩ : Shape).Idx → α) (idx : IVec ⟨2, ![P, 1]⟩ w) (k : Fin 2) (j : Fin P) :
    Host.gather (colDims N P wf) x idx (ix2 k j)
      = x (ix2 k ⟨min (idx (ix2 j (0 : Fin 1))).toInt.toNat (N - 1), by omega⟩) := by
  have h0 : ((colDims N P wf).operandIdx (ix2 k j) idx (0 : Fin 2)).val = k.val := by
    show (colDims N P wf).start (ix2 k j) idx (0 : Fin 2) + (colDims N P wf).batchCoord (ix2 k j) (0 : Fin 2)
      + (colDims N P wf).offCoord (ix2 k j) (0 : Fin 2) = _
    rw [GatherDims.batchCoord_eq_zero _ _ _ List.not_mem_nil]
    have hs : (colDims N P wf).start (ix2 k j) idx (0 : Fin 2) = 0 := by
      unfold GatherDims.start; rw [dif_neg (show (0 : Fin 2) ∉ ([1] : List (Fin 2)) by decide)]
    have ho : (colDims N P wf).offCoord (ix2 k j) (0 : Fin 2) = k.val := by
      unfold GatherDims.offCoord
      rw [dif_pos ((GatherDims.mem_sKept _ _).mpr ⟨(show (0 : Fin 2) ∉ ([1] : List (Fin 2)) by decide), List.not_mem_nil⟩)]; rfl
    rw [hs, ho]; omega
  have h1 : ((colDims N P wf).operandIdx (ix2 k j) idx (1 : Fin 2)).val
      = min (idx (ix2 j (0 : Fin 1))).toInt.toNat (N - 1) := by
    show (colDims N P wf).start (ix2 k j) idx (1 : Fin 2) + (colDims N P wf).batchCoord (ix2 k j) (1 : Fin 2)
      + (colDims N P wf).offCoord (ix2 k j) (1 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims N P wf).startIndexMap from List.mem_singleton.mpr rfl)]
    have hsi : (colDims N P wf).siIdx (ix2 k j) ⟨List.idxOf (1 : Fin 2) (colDims N P wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  unfold Host.gather
  exact congrArg x (funext fun a => Fin.ext (by
    match a with
    | ⟨0, _⟩ => exact h0
    | ⟨1, _⟩ => exact h1))

/-! ## Rows of an `[N, 2]` table -/

/-- The dimension numbers of `table[idx]`: the index names a position on axis 0, which is collapsed; the result's axis 1
    runs over the kept axis 1 of the table. -/
abbrev rowDims (N P : Nat) (wf : GatherDims.WF ⟨2, ![N, 2]⟩ ⟨2, ![P, 1]⟩ ⟨2, ![P, 2]⟩ [1] [0] [] [0] [] 1 ![1, 2]) :
    GatherDims ⟨2, ![N, 2]⟩ ⟨2, ![P, 1]⟩ ⟨2, ![P, 2]⟩ where
  offsetDims := [1]
  collapsedSliceDims := [0]
  operandBatchingDims := []
  startIndicesBatchingDims := []
  startIndexMap := [0]
  indexVectorDim := 1
  sliceSizes := ![1, 2]
  wf := wf

/-- Result element `(j, k)` is the table at `(clamp idx[j, 0], k)`. -/
theorem gather_rows_apply {N P w : Nat} (hN : 0 < N)
    (wf : GatherDims.WF ⟨2, ![N, 2]⟩ ⟨2, ![P, 1]⟩ ⟨2, ![P, 2]⟩ [1] [0] [] [0] [] 1 ![1, 2])
    (x : (⟨2, ![N, 2]⟩ : Shape).Idx → α) (idx : IVec ⟨2, ![P, 1]⟩ w) (j : Fin P) (k : Fin 2) :
    Host.gather (rowDims N P wf) x idx (ix2 j k)
      = x (ix2 ⟨min (idx (ix2 j (0 : Fin 1))).toInt.toNat (N - 1), by omega⟩ k) := by
  have h0 : ((rowDims N P wf).operandIdx (ix2 j k) idx (0 : Fin 2)).val
      = min (idx (ix2 j (0 : Fin 1))).toInt.toNat (N - 1) := by
    show (rowDims N P wf).start (ix2 j k) idx (0 : Fin 2) + (rowDims N P wf).batchCoord (ix2 j k) (0 : Fin 2)
      + (rowDims N P wf).offCoord (ix2 j k) (0 : Fin 2) = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N P wf).startIndexMap from List.mem_singleton.mpr rfl)]
    have hsi : (rowDims N P wf).siIdx (ix2 j k) ⟨List.idxOf (0 : Fin 2) (rowDims N P wf).startIndexMap,
        List.idxOf_lt_length_iff.2 (List.mem_singleton.mpr rfl)⟩ = ix2 j (0 : Fin 1) := by
      funext b; refine Fin.ext ?_
      match b with
      | ⟨0, _⟩ => rfl
      | ⟨1, _⟩ => rfl
    rw [hsi]
    rfl
  have h1 : ((rowDims N P wf).operandIdx (ix2 j k) idx (1 : Fin 2)).val = k.val := by
    show (rowDims N P wf).start (ix2 j k) idx (1 : Fin 2) + (rowDims N P wf).batchCoord (ix2 j k) (1 : Fin 2)
      + (rowDims N P wf).offCoord (ix2 j k) (1 : Fin 2) = _
    rw [GatherDims.batchCoord_eq_zero _ _ _ List.not_mem_nil]
    have hs : (rowDims N P wf).start (ix2 j k) idx (1 : Fin 2) = 0 := by
      unfold GatherDims.start; rw [dif_neg (show (1 : Fin 2) ∉ ([0] : List (Fin 2)) by decide)]
    have ho : (rowDims N P wf).offCoord (ix2 j k) (1 : Fin 2) = k.val := by
      unfold GatherDims.offCoord
      rw [dif_pos ((GatherDims.mem_sKept _ _).mpr ⟨(show (1 : Fin 2) ∉ ([0] : List (Fin 2)) by decide), List.not_mem_nil⟩)]; rfl
    rw [hs, ho]; omega
  unfold Host.gather
  exact congrArg x (funext fun a => Fin.ext (by
    match a with
    | ⟨0, _⟩ => exact h0
    | ⟨1, _⟩ => exact h1))

end Cert.GatherRead
-- ==== Proof.HostPrefix.lean ====
/-
  The three arrays the kernel's region reads, in terms of the program's arguments.

  Before the region the program forms the table (rest positions plus displacements, the latter reshaped to two per
  point), transposes it to `[2, 262144]`, wraps each index word (262144 added to a negative one) and gathers columns of the
  transposed table: one `[2, 8388608]` array per word argument. Element `(k, j)` of such an array is coordinate `k` of the
  point that candidate `j`'s word names.
-/
import proofs.«107758_j21869973471370_1_alg».proof.Proof.Gen.KernelIdeal.Frame
import proofs.«107758_j21869973471370_1_alg».proof.Proof.PairEnergy
import proofs.«107758_j21869973471370_1_alg».proof.Proof.LibGatherTable
import Idealize.ShloMosaic.Lib.ValueLayout
import Idealize.ShloMosaic.Lib.StableHlo.Run

noncomputable section

namespace Cert.KernelIdeal.HostPrefix

open Cert.KernelIdeal Cert.KernelIdeal.Gen Idealize.ShloMosaic Idealize.ShloMosaic.TcCoe Idealize.SL.Sem
open Idealize.ShloMosaic.ValueIdx Idealize.ShloMosaic.StableHlo Cert.PairEnergy

variable {F : FTy → Type} [FloatOps F]

/-- The wrapped words: 262144 added where the word is negative. -/
def wrapped (w : IVec S8388608 32) : IVec S8388608 32 :=
  select (cmpi .slt w (broadcastInDim S8388608 ![] bcast_S_S8388608 (constantI S_ 32 0#32)))
    (addi w (broadcastInDim S8388608 ![] bcast_S_S8388608 (constantI S_ 32 262144#32))) w

/-- The columns of the transposed table that the words `w` name. -/
def gathered (x0 : FVec F S524288 .f32) (x1 : FVec F S262144x2 .f32) (w : IVec S8388608 32) : FVec F S2x8388608 .f32 :=
  Host.gather gather_S2x262144_S8388608x1_S2x8388608_0_1_n_n_1_1_21
    (transpose S2x262144 [1, 0] (addf x1 (shapeCast S262144x2 x0 shapeCasts_S524288_S262144x2)) transposes_S262144x2_S2x262144_1_0)
    (broadcastInDim S8388608x1 ![0] bcast_S8388608_S8388608x1_0 (wrapped w))

/-- A wrapped word, at a candidate. -/
theorem wrapped_apply (w : IVec S8388608 32) (j : Fin 8388608) : wrapped w (ix1 j) = wrapWord (w (ix1 j)) := by
  unfold wrapped wrapWord
  rw [select_apply]
  have h0 : broadcastInDim S8388608 ![] bcast_S_S8388608 (constantI S_ 32 0#32) (ix1 j) = 0#32 :=
    broadcastInDim_apply _ bcast_S_S8388608 _ (ix1 j) ix0 (fun a => a.elim0)
  have h1 : broadcastInDim S8388608 ![] bcast_S_S8388608 (constantI S_ 32 262144#32) (ix1 j) = 262144#32 :=
    broadcastInDim_apply _ bcast_S_S8388608 _ (ix1 j) ix0 (fun a => a.elim0)
  show Scalar.select (IntOp.cmpi .slt (w (ix1 j)) (broadcastInDim S8388608 ![] bcast_S_S8388608 (constantI S_ 32 0#32) (ix1 j)))
    (IntOp.addi (w (ix1 j)) (broadcastInDim S8388608 ![] bcast_S_S8388608 (constantI S_ 32 262144#32) (ix1 j))) (w (ix1 j)) = _
  rw [h0, h1]

/-- Element `(k, j)` of a gathered array: coordinate `k` of the point candidate `j`'s word names. -/
theorem gathered_apply (x0 : FVec Ideal S524288 .f32) (x1 : FVec Ideal S262144x2 .f32) (w : IVec S8388608 32)
    (k : Fin 2) (j : Fin 8388608) :
    gathered (F := Ideal) x0 x1 w (ix2 k j) = coordAt x0 x1 (vertex (w (ix1 j))) k := by
  unfold gathered
  refine (Cert.GatherRead.gather_cols_apply (N := 262144) (P := 8388608) (by decide)
    gather_S2x262144_S8388608x1_S2x8388608_0_1_n_n_1_1_21_wf _ _ k j).trans ?_
  refine (transpose_ix2_apply _ _ k _).trans ?_
  have hw : broadcastInDim S8388608x1 ![0] bcast_S8388608_S8388608x1_0 (wrapped w) (ix2 j (0 : Fin 1)) = wrapWord (w (ix1 j)) :=
    (broadcastInDim_apply _ bcast_S8388608_S8388608x1_0 (wrapped w) (ix2 j (0 : Fin 1)) (ix1 j) (fun a => match a with
      | ⟨0, _⟩ => by show j.val = if (8388608 : Nat) = 1 then 0 else j.val; rw [if_neg (by decide)])).trans (wrapped_apply w j)
  have hn : (⟨min (broadcastInDim S8388608x1 ![0] bcast_S8388608_S8388608x1_0 (wrapped w) (ix2 j (0 : Fin 1))).toInt.toNat (262144 - 1),
      by omega⟩ : Fin 262144) = vertex (w (ix1 j)) := Fin.ext (by show min _ _ = min _ _; rw [hw])
  rw [hn]
  unfold coordAt
  rw [addf_apply]
  refine congrArg (x1 (ix2 (vertex (w (ix1 j))) k) + ·) ?_
  exact shapeCast_apply x0 shapeCasts_S524288_S262144x2 _ _ (by
    rw [Shape.rowMajor_val_one, Shape.rowMajor_val_two]
    show (vertex (w (ix1 j))).val * 2 + k.val = (vertex (w (ix1 j))).val * 2 + k.val
    rfl)

variable (m : (ℓ : Loc nD τ sig) → Buf (Elt F) ℓ)

set_option maxHeartbeats 4000000 in
/-- The region finds the vertices' array gathered by the first word argument, -/
theorem arrP_eq (c : Dev nD) :
    V m c main_v9 = gathered (m ((c : Thread nD τ).loc main_arg0)) (m ((c : Thread nD τ).loc main_arg1)) (m ((c : Thread nD τ).loc main_arg2)) := by
  show StableHlo.after hostOps0 (fun b => m (c, b)) (Proc.devRef .tc main_v9) = _
  after_results_simp <;> rfl

set_option maxHeartbeats 4000000 in
/-- the edges' first ends by the second, -/
theorem arrA_eq (c : Dev nD) :
    V m c main_v16 = gathered (m ((c : Thread nD τ).loc main_arg0)) (m ((c : Thread nD τ).loc main_arg1)) (m ((c : Thread nD τ).loc main_arg3)) := by
  show StableHlo.after hostOps0 (fun b => m (c, b)) (Proc.devRef .tc main_v16) = _
  after_results_simp <;> rfl

set_option maxHeartbeats 4000000 in
/-- and their second ends by the third. -/
theorem arrB_eq (c : Dev nD) :
    V m c main_v23 = gathered (m ((c : Thread nD τ).loc main_arg0)) (m ((c : Thread nD τ).loc main_arg1)) (m ((c : Thread nD τ).loc main_arg4)) := by
  show StableHlo.after hostOps0 (fun b => m (c, b)) (Proc.devRef .tc main_v23) = _
  after_results_simp <;> rfl

end Cert.KernelIdeal.HostPrefix

end
-- ==== Proof.KernelResult.lean ====
/-
  The kernel's result is the sum over the candidates of their terms.

  The word after the last grid point is the running sum of the 512 block sums, and the blocks make up all the
  candidates; column `j` of each gathered array is the point candidate `j`'s word names. So the word is the sum over the
  candidates of the term of their three points — the same function of the arguments as the reference's result.
-/
import proofs.«107758_j21869973471370_1_alg».proof.Proof.KernelSum
import proofs.«107758_j21869973471370_1_alg».proof.Proof.HostPrefix

noncomputable section

namespace Cert.KernelIdeal.Result

open Cert.KernelIdeal Cert.KernelIdeal.Gen Idealize.ShloMosaic Idealize.ShloMosaic.TcCoe Idealize.SL.Sem
open Idealize.ShloMosaic.ValueIdx Cert.PairEnergy

variable (m : (ℓ : Loc nD τ sig) → Buf (Elt Ideal) ℓ) (ρ : Dev nD → PrngReg)

/-- The sum of the terms, as a function of the launch contents of the five arguments. -/
abbrev energy (c : Dev nD) : EReal :=
  totalEnergy (m ((c : Thread nD τ).loc main_arg0)) (m ((c : Thread nD τ).loc main_arg1)) (m ((c : Thread nD τ).loc main_arg2))
    (m ((c : Thread nD τ).loc main_arg3)) (m ((c : Thread nD τ).loc main_arg4))

/-- The accumulator after the last point is that sum. -/
theorem total_eq (c : Dev nD) : Accum.total m c = energy m c := by
  unfold Accum.total
  rw [Accum.runningSum_blocks]
  unfold energy totalEnergy
  refine Finset.sum_congr rfl fun j _ => ?_
  unfold Accum.candTerm pairEnergy
  show pairTerm (V m c main_v9 (ix2 0 j)) (V m c main_v9 (ix2 1 j)) (V m c main_v16 (ix2 0 j)) (V m c main_v16 (ix2 1 j))
    (V m c main_v23 (ix2 0 j)) (V m c main_v23 (ix2 1 j)) = _
  rw [HostPrefix.arrP_eq, HostPrefix.arrA_eq, HostPrefix.arrB_eq]
  simp only [HostPrefix.gathered_apply]

/-- The run with the result named: the sum of the terms, the arguments unchanged. -/
theorem run : θ_run defs (onTc (τ := τ) (main (F := Ideal))) ⟨m, fun _ => 0, ρ⟩ fun r => ∀ c : Dev nD,
      r.2.mem ((c.tc : Thread nD τ).loc main_v25) = (fun _ => energy m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rw [total_eq]), (h c).2⟩) (Accum.run m ρ)

end Cert.KernelIdeal.Result

end
-- ==== Proof.RefValue.lean ====
/-
  The reference's result, read index by index: it is the sum over the candidates of their terms.

  The reference gathers rows of the `[262144, 2]` table for the three words of each candidate, forms the edge vector
  `e = b - a` and the offset `q = p - a`, and takes the two dot products `e·e`, `q·e` as sums along the axis of length two
  (each such sum starts from a zero, which adds nothing). The clip is a maximum with zero then a minimum with one; the
  negation of the squared excess is the same number as its difference from zero. The last operation sums the terms of
  all candidates, again from a zero.
-/
import proofs.«107758_j21869973471370_1_alg».proof.Proof.Gen.ReferenceIdeal.Read
import proofs.«107758_j21869973471370_1_alg».proof.Proof.PairEnergy
import proofs.«107758_j21869973471370_1_alg».proof.Proof.LibGatherTable
import Idealize.ShloMosaic.Lib.ValueIdxRank1

noncomputable section

namespace Cert.ReferenceIdeal.RefValue

open Cert.ReferenceIdeal Cert.ReferenceIdeal.Read Idealize.ShloMosaic Idealize.ShloMosaic.ValueIdx Cert.PairEnergy

variable (x0 : SFlat.Idx → EReal) (x1 : STable.Idx → EReal) (x2 x3 x4 : SPairs.Idx → BitVec 32)

/-! ## The table and the index words -/

/-- The table: rest position plus displacement, the displacement of point `n`, coordinate `k` at `2 n + k`. -/
theorem table_apply (n : Fin 262144) (k : Fin 2) :
    val_main_v1 (F := Ideal) x0 x1 (ix2 n k) = coordAt x0 x1 n k := by
  have e : idx_main_v0 (ix2 n k) = ix1 ⟨n.val * 2 + k.val, by have := n.isLt; have := k.isLt; omega⟩ :=
    funext fun a => by match a with | ⟨0, _⟩ => rfl
  rw [val_main_v1_apply, val_main_v0_apply, e]
  rfl

/-- The vertex words, wrapped: 262144 added to a negative word. -/
theorem wordV_apply (j : Fin 8388608) : val_main_v7 (F := Ideal) x2 (ix2 j (0 : Fin 1)) = wrapWord (x2 (ix1 j)) := by
  have e : idx_main_v7 (ix2 j (0 : Fin 1)) = ix1 j := funext fun a => by match a with | ⟨0, _⟩ => rfl
  rw [val_main_v7_apply, e, val_main_v6_apply, val_main_v3_apply, val_main_v5_apply, val_main_v2_apply, val_main_v4_apply,
    val_main_c_apply, val_main_c_0_apply]
  rfl

/-- The words of the edge's first end, wrapped. -/
theorem wordA_apply (j : Fin 8388608) : val_main_v14 (F := Ideal) x3 (ix2 j (0 : Fin 1)) = wrapWord (x3 (ix1 j)) := by
  have e : idx_main_v14 (ix2 j (0 : Fin 1)) = ix1 j := funext fun a => by match a with | ⟨0, _⟩ => rfl
  rw [val_main_v14_apply, e, val_main_v13_apply, val_main_v10_apply, val_main_v12_apply, val_main_v9_apply, val_main_v11_apply,
    val_main_c_1_apply, val_main_c_2_apply]
  rfl

/-- The words of the edge's second end, wrapped. -/
theorem wordB_apply (j : Fin 8388608) : val_main_v21 (F := Ideal) x4 (ix2 j (0 : Fin 1)) = wrapWord (x4 (ix1 j)) := by
  have e : idx_main_v21 (ix2 j (0 : Fin 1)) = ix1 j := funext fun a => by match a with | ⟨0, _⟩ => rfl
  rw [val_main_v21_apply, e, val_main_v20_apply, val_main_v17_apply, val_main_v19_apply, val_main_v16_apply, val_main_v18_apply,
    val_main_c_3_apply, val_main_c_4_apply]
  rfl

/-! ## The three gathered points -/

/-- The vertex of candidate `j`, coordinate `k`. -/
theorem pointP_apply (j : Fin 8388608) (k : Fin 2) :
    val_main_v8 (F := Ideal) x0 x1 x2 (ix2 j k) = coordAt x0 x1 (vertex (x2 (ix1 j))) k := by
  unfold val_main_v8
  refine (Cert.GatherRead.gather_rows_apply (N := 262144) (P := 8388608) (by decide)
    Facts₀.gather_S262144x2_S8388608x1_S8388608x2_1_0_n_n_0_1_12_wf _ _ j k).trans ?_
  rw [table_apply]
  refine congrArg (fun n => coordAt x0 x1 n k) (Fin.ext ?_)
  show min (val_main_v7 (F := Ideal) x2 (ix2 j (0 : Fin 1))).toInt.toNat (262144 - 1) = _
  rw [wordV_apply]
  rfl

/-- The edge's first end. -/
theorem pointA_apply (j : Fin 8388608) (k : Fin 2) :
    val_main_v15 (F := Ideal) x0 x1 x3 (ix2 j k) = coordAt x0 x1 (vertex (x3 (ix1 j))) k := by
  unfold val_main_v15
  refine (Cert.GatherRead.gather_rows_apply (N := 262144) (P := 8388608) (by decide)
    Facts₀.gather_S262144x2_S8388608x1_S8388608x2_1_0_n_n_0_1_12_wf _ _ j k).trans ?_
  rw [table_apply]
  refine congrArg (fun n => coordAt x0 x1 n k) (Fin.ext ?_)
  show min (val_main_v14 (F := Ideal) x3 (ix2 j (0 : Fin 1))).toInt.toNat (262144 - 1) = _
  rw [wordA_apply]
  rfl

/-- The edge's second end. -/
theorem pointB_apply (j : Fin 8388608) (k : Fin 2) :
    val_main_v22 (F := Ideal) x0 x1 x4 (ix2 j k) = coordAt x0 x1 (vertex (x4 (ix1 j))) k := by
  unfold val_main_v22
  refine (Cert.GatherRead.gather_rows_apply (N := 262144) (P := 8388608) (by decide)
    Facts₀.gather_S262144x2_S8388608x1_S8388608x2_1_0_n_n_0_1_12_wf _ _ j k).trans ?_
  rw [table_apply]
  refine congrArg (fun n => coordAt x0 x1 n k) (Fin.ext ?_)
  show min (val_main_v21 (F := Ideal) x4 (ix2 j (0 : Fin 1))).toInt.toNat (262144 - 1) = _
  rw [wordB_apply]
  rfl

/-! ## The edge vector, the offset, the clipped parameter, the squared distance -/

/-- Coordinate `k` of the edge vector `b - a` of candidate `j`. -/
abbrev edge (j : Fin 8388608) (k : Fin 2) : EReal :=
  coordAt x0 x1 (vertex (x4 (ix1 j))) k - coordAt x0 x1 (vertex (x3 (ix1 j))) k
/-- Coordinate `k` of the offset `p - a`. -/
abbrev offs (j : Fin 8388608) (k : Fin 2) : EReal :=
  coordAt x0 x1 (vertex (x2 (ix1 j))) k - coordAt x0 x1 (vertex (x3 (ix1 j))) k

theorem edge_apply (j : Fin 8388608) (k : Fin 2) :
    val_main_v23 (F := Ideal) x0 x1 x3 x4 (ix2 j k) = edge x0 x1 x3 x4 j k := by
  rw [val_main_v23_apply, pointB_apply, pointA_apply]; rfl

theorem offs_apply (j : Fin 8388608) (k : Fin 2) :
    val_main_v24 (F := Ideal) x0 x1 x2 x3 (ix2 j k) = offs x0 x1 x2 x3 j k := by
  rw [val_main_v24_apply, pointP_apply, pointA_apply]; rfl

theorem idx_pair (j : Fin 8388608) (k : Fin 2) : idx_main_v26 (ix1 j) k = ix2 j k :=
  funext fun a => by match a with | ⟨0, _⟩ => rfl | ⟨1, _⟩ => rfl

/-- `e·e`, from a zero. -/
theorem edgeSq_apply (j : Fin 8388608) :
    val_main_v26 (F := Ideal) x0 x1 x3 x4 (ix1 j)
      = zeroLit + (edge x0 x1 x3 x4 j 0 * edge x0 x1 x3 x4 j 0 + edge x0 x1 x3 x4 j 1 * edge x0 x1 x3 x4 j 1) := by
  rw [val_main_v26_apply, Fin.sum_univ_two, idx_pair, idx_pair, val_main_v25_apply, val_main_v25_apply, edge_apply, edge_apply,
    val_main_cst_apply]
  rfl

/-- `q·e`, from a zero. -/
theorem offsEdge_apply (j : Fin 8388608) :
    val_main_v28 (F := Ideal) x0 x1 x2 x3 x4 (ix1 j)
      = zeroLit + (offs x0 x1 x2 x3 j 0 * edge x0 x1 x3 x4 j 0 + offs x0 x1 x2 x3 j 1 * edge x0 x1 x3 x4 j 1) := by
  rw [val_main_v28_apply, Fin.sum_univ_two]
  rw [show idx_main_v28 (ix1 j) 0 = ix2 j 0 from idx_pair j 0, show idx_main_v28 (ix1 j) 1 = ix2 j 1 from idx_pair j 1,
    val_main_v27_apply, val_main_v27_apply, edge_apply, edge_apply, offs_apply, offs_apply, val_main_cst_5_apply]
  rfl

/-- The clipped parameter. -/
theorem clip_apply (j : Fin 8388608) :
    val_main_v32 (F := Ideal) x0 x1 x2 x3 x4 (ix1 j)
      = clipParam (edge x0 x1 x3 x4 j 0) (edge x0 x1 x3 x4 j 1) (offs x0 x1 x2 x3 j 0) (offs x0 x1 x2 x3 j 1) := by
  rw [val_main_v32_apply, val_main_call0_v4_apply, val_main_call0_v3_apply, val_main_cst_8_apply, val_main_call0_v2_apply,
    val_main_call0_v1_apply, val_main_call0_v0_apply, val_main_cst_7_apply, val_main_v31_apply, offsEdge_apply,
    val_main_v30_apply, edgeSq_apply, val_main_v29_apply, val_main_cst_6_apply]
  unfold clipParam
  simp only [Ideal.minimumf_def, Ideal.maximumf_def, Ideal.hostDivf_def, Ideal.ofBits_def, Ideal.ofBits_zero_f32, zero_add]

/-- Coordinate `k` of `q - t e`. -/
theorem resid_apply (j : Fin 8388608) (k : Fin 2) :
    val_main_v36 (F := Ideal) x0 x1 x2 x3 x4 (ix2 j k)
      = offs x0 x1 x2 x3 j k
        - clipParam (edge x0 x1 x3 x4 j 0) (edge x0 x1 x3 x4 j 1) (offs x0 x1 x2 x3 j 0) (offs x0 x1 x2 x3 j 1) * edge x0 x1 x3 x4 j k := by
  have e34 : idx_main_v34 (ix2 j k) = ix2 j (0 : Fin 1) := funext fun a => by match a with | ⟨0, _⟩ => rfl | ⟨1, _⟩ => rfl
  have e33 : idx_main_v33 (ix2 j (0 : Fin 1)) = ix1 j := funext fun a => by match a with | ⟨0, _⟩ => rfl
  rw [val_main_v36_apply, offs_apply, val_main_v35_apply, edge_apply, val_main_v34_apply, e34, val_main_v33_apply, e33, clip_apply]
  rfl

/-- The squared distance, from a zero. -/
theorem sqDist_apply (j : Fin 8388608) :
    val_main_v38 (F := Ideal) x0 x1 x2 x3 x4 (ix1 j)
      = zeroLit + sqDist (edge x0 x1 x3 x4 j 0) (edge x0 x1 x3 x4 j 1) (offs x0 x1 x2 x3 j 0) (offs x0 x1 x2 x3 j 1) := by
  rw [val_main_v38_apply, Fin.sum_univ_two]
  rw [show idx_main_v38 (ix1 j) 0 = ix2 j 0 from idx_pair j 0, show idx_main_v38 (ix1 j) 1 = ix2 j 1 from idx_pair j 1,
    val_main_v37_apply, val_main_v37_apply, resid_apply, resid_apply, val_main_cst_9_apply]
  rfl

/-! ## One candidate's term, and the sum -/

/-- The term of candidate `j`. -/
theorem term_apply (j : Fin 8388608) :
    val_main_v51 (F := Ideal) x0 x1 x2 x3 x4 (ix1 j) = pairEnergy x0 x1 (x2 (ix1 j)) (x3 (ix1 j)) (x4 (ix1 j)) := by
  rw [val_main_v51_apply, val_main_v50_apply, val_main_v48_apply, val_main_v44_apply, val_main_v43_apply, val_main_v42_apply,
    val_main_v47_apply, val_main_v46_apply, val_main_v40_apply, sqDist_apply, val_main_v39_apply, val_main_cst_10_apply,
    val_main_v41_apply, val_main_cst_11_apply, val_main_v45_apply, val_main_cst_12_apply, val_main_v49_apply, val_main_cst_13_apply,
    val_main_call1_v1_apply, val_main_call1_v0_apply, val_main_cst_14_apply]
  unfold pairEnergy pairTerm barrier
  simp only [Ideal.cmpf_def, Ideal.mulf_def, Ideal.subf_def, Ideal.hostNegf_def, Ideal.negf_def, Ideal.hostUnary_log_def,
    Ideal.hostDivf_def, Ideal.maximumf_def, Ideal.ofBits_def, Ideal.ofBits_zero_f32, zero_add, zero_sub]

/-- The reference's result: the sum over the candidates of their terms. -/
theorem result_apply (i : S_.Idx) :
    val_main_v52 (F := Ideal) x0 x1 x2 x3 x4 i = totalEnergy x0 x1 x2 x3 x4 := by
  rw [val_main_v52_apply, val_main_cst_15_apply]
  unfold totalEnergy
  rw [← (idxEquiv1 (n := 8388608)).symm.sum_comp]
  simp only [Ideal.ofBits_def, Ideal.ofBits_zero_f32, zero_add]
  refine Finset.sum_congr rfl fun j _ => ?_
  exact term_apply x0 x1 x2 x3 x4 j

end Cert.ReferenceIdeal.RefValue

end
-- ==== Proof.lean ====
/-
  The certificate: a barrier energy over 8388608 vertex–edge candidates, computed by a gridded kernel and by a
  plain array program, is one function of the arguments over the extended reals.

  Both programs build the same table of points (rest positions plus displacements), look up three points per
  candidate by index words wrapped and clamped the same way, and take the barrier of the squared distance from the
  vertex to the segment (Proof/PairEnergy.lean states the term). They differ in layout and in the order of summation
  only: the kernel gathers columns of the transposed table and keeps the two coordinates on two rows, the reference
  gathers rows and sums along an axis of length two starting from a zero; the kernel sums 16384 candidates per grid
  point and carries a running total over 512 points in a one-word block, the reference sums all candidates at once
  from a zero; the kernel writes `0 - x` where the reference negates. Addition on the extended reals is commutative and
  associative and zero is neutral for it, so no finiteness of an input is used: the precondition is never opened.

    frame_Kernel, frame_KernelIdeal — the generated frames.
    frame_ReferenceIdeal — the reference's generated run, its result dropped.
    preserves_Kernel_KernelIdeal — no rewrite was applied: `True`.
    algebraic_KernelIdeal_ReferenceIdeal — the kernel's run ends at the sum of the terms (Proof/KernelResult.lean: the
      running total over the grid points, Proof/KernelSum.lean, of the lane sums, Proof/KernelLane.lean, over the
      gathered arrays, Proof/HostPrefix.lean), the reference's at the same sum (Proof/RefValue.lean), of arguments
      that agree.
-/
import proofs.«107758_j21869973471370_1_alg».proof.Defs
import proofs.«107758_j21869973471370_1_alg».proof.Proof.Gen.Kernel
import proofs.«107758_j21869973471370_1_alg».proof.Proof.Gen.Kernel.Skeleton
import proofs.«107758_j21869973471370_1_alg».proof.Proof.Gen.Kernel.Launch
import proofs.«107758_j21869973471370_1_alg».proof.Proof.Gen.Kernel.Points
import proofs.«107758_j21869973471370_1_alg».proof.Proof.Gen.Kernel.Frame
import proofs.«107758_j21869973471370_1_alg».proof.Proof.Gen.KernelIdeal
import proofs.«107758_j21869973471370_1_alg».proof.Proof.Gen.KernelIdeal.Skeleton
import proofs.«107758_j21869973471370_1_alg».proof.Proof.Gen.KernelIdeal.Launch
import proofs.«107758_j21869973471370_1_alg».proof.Proof.Gen.KernelIdeal.Points
import proofs.«107758_j21869973471370_1_alg».proof.Proof.Gen.KernelIdeal.Frame
import proofs.«107758_j21869973471370_1_alg».proof.Proof.Gen.ReferenceIdeal
import proofs.«107758_j21869973471370_1_alg».proof.Proof.Gen.ReferenceIdeal.Run
import proofs.«107758_j21869973471370_1_alg».proof.Proof.Gen.ReferenceIdeal.Read
import proofs.«107758_j21869973471370_1_alg».proof.Proof.Gen.Pre_finite_inputs
import proofs.«107758_j21869973471370_1_alg».proof.Proof.KernelResult
import proofs.«107758_j21869973471370_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the sum over the candidates of their terms, of arguments that agree. -/
theorem algebraic : Cert.algebraic_KernelIdeal_ReferenceIdeal := by
  intro m ρ m' ρ' _ hagree
  refine ⟨fun c _ => Cert.KernelIdeal.Result.energy m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2.1,
    (hagree c).2.2.2.2]
  funext i
  exact Cert.ReferenceIdeal.RefValue.result_apply _ _ _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
